-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S16384x16384 : Shape := ⟨2, ![16384, 16384]⟩
abbrev S128x128 : Shape := ⟨2, ![128, 128]⟩
abbrev S128 : Shape := ⟨1, ![128]⟩
abbrev S1x500000 : Shape := ⟨2, ![1, 500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S16384x16384 1) : IVec S_ 1 :=
  let main_c_5 : IVec S_ 1 := constantI S_ 1 1#1
  let main_v17 : IVec S_ 1 := (fun x v => Host.reduce IntOp.andi x v reducesTo_S16384x16384_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S500000x128 .f32) (main_arg1 : FVec F S500000x128 .f32) (main_arg2 : FVec F S500000x128 .f32) (main_arg3 : FVec F S16384x16384 .f32) (main_arg4 : FVec F S128x128 .f32) (main_arg5 : FVec F S128 .f32) (main_arg6 : IVec S1x500000 32) (main_arg7 : IVec S1x500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x128 .f32 := Host.absf main_arg2
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S16384x16384 .f32 := Host.absf main_arg3
  let main_cst_4 : FVec F S_ .f32 := constant S_ .f32 0x7F800000#32
  let main_v15 : FVec F S16384x16384 .f32 := broadcastInDim S16384x16384 ![] bcast_S_S16384x16384 main_cst_4
  let main_v16 : IVec S16384x16384 1 := cmpf .olt main_v14 main_v15
  fn_part1 (F := F) main_arg4 main_arg5 main_v13 main_v16
-- ==== Kernel.lean ====
abbrev S500000x128 : Shape := ⟨2, ![500000, 128]⟩
abbrev S16384x16384 : Shape := ⟨2, ![16384, 16384]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x2 : Shape := ⟨2, ![500000, 2]⟩
abbrev S503808x128 : Shape := ⟨2, ![503808, 128]⟩
abbrev S503808 : Shape := ⟨1, ![503808]⟩
abbrev S503808x1 : Shape := ⟨2, ![503808, 1]⟩
abbrev S4096x128 : Shape := ⟨2, ![4096, 128]⟩
abbrev S4096x1 : Shape := ⟨2, ![4096, 1]⟩
abbrev S1x128 : Shape := ⟨2, ![1, 128]⟩
abbrev S4096 : Shape := ⟨1, ![4096]⟩

abbrev nBuf : Space → Nat
  | .hbm => 46
  | .vmem => 14
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S16384x16384, .f32⟩
  | .hbm, ⟨4, _⟩ => ⟨S128x128, .f32⟩
  | .hbm, ⟨5, _⟩ => ⟨S128, .f32⟩
  | .hbm, ⟨6, _⟩ => ⟨S1x500000, .i32⟩
  | .hbm, ⟨7, _⟩ => ⟨S1x500000, .i32⟩
  | .hbm, ⟨8, _⟩ => ⟨S500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x1, .i32⟩
  | .hbm, ⟨26, _⟩ => ⟨S500000x2, .i32⟩
  | .hbm, ⟨27, _⟩ => ⟨S500000, .f32⟩
  | .hbm, ⟨28, _⟩ => ⟨S_, .i32⟩
  | .hbm, ⟨29, _⟩ => ⟨S_, .f32⟩
  | .hbm, ⟨30, _⟩ => ⟨S503808x128, .f32⟩
  | .hbm, ⟨31, _⟩ => ⟨S_, .i32⟩
  | .hbm, ⟨32, _⟩ => ⟨S_, .f32⟩
  | .hbm, ⟨33, _⟩ => ⟨S503808x128, .f32⟩
  | .hbm, ⟨34, _⟩ => ⟨S_, .i32⟩
  | .hbm, ⟨35, _⟩ => ⟨S_, .f32⟩
  | .hbm, ⟨36, _⟩ => ⟨S503808, .f32⟩
  | .hbm, ⟨37, _⟩ => ⟨S503808x1, .f32⟩
  | .hbm, ⟨38, _⟩ => ⟨S503808x128, .f32⟩
  | .hbm, ⟨39, _⟩ => ⟨S503808x1, .f32⟩
  | .hbm, ⟨40, _⟩ => ⟨S503808x1, .f32⟩
  | .hbm, ⟨41, _⟩ => ⟨S500000x128, .f32⟩
  | .hbm, ⟨42, _⟩ => ⟨S500000x1, .f32⟩
  | .hbm, ⟨43, _⟩ => ⟨S500000, .f32⟩
  | .hbm, ⟨44, _⟩ => ⟨S500000x1, .f32⟩
  | .hbm, ⟨45, _⟩ => ⟨S500000, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x1, .f32⟩
  | .local _ .vmem, ⟨5, _⟩ => ⟨S4096x1, .f32⟩
  | .local _ .vmem, ⟨6, _⟩ => ⟨S128x128, .f32⟩
  | .local _ .vmem, ⟨7, _⟩ => ⟨S128, .f32⟩
  | .local _ .vmem, ⟨8, _⟩ => ⟨S4096x128, .f32⟩
  | .local _ .vmem, ⟨9, _⟩ => ⟨S4096x128, .f32⟩
  | .local _ .vmem, ⟨10, _⟩ => ⟨S4096x1, .f32⟩
  | .local _ .vmem, ⟨11, _⟩ => ⟨S4096x1, .f32⟩
  | .local _ .vmem, ⟨12, _⟩ => ⟨S4096x1, .f32⟩
  | .local _ .vmem, ⟨13, _⟩ => ⟨S4096x1, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_call0_v0 : Ref sig .tc := ⟨.hbm, 29, rfl⟩
abbrev main_v16 : Ref sig .tc := ⟨.hbm, 30, rfl⟩
abbrev main_c_4 : Ref sig .tc := ⟨.hbm, 31, rfl⟩
abbrev main_call1_v0 : Ref sig .tc := ⟨.hbm, 32, rfl⟩
abbrev main_v17 : Ref sig .tc := ⟨.hbm, 33, rfl⟩
abbrev main_c_5 : Ref sig .tc := ⟨.hbm, 34, rfl⟩
abbrev main_call2_v0 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev main_v20_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  pads_S500000x128_S503808x128_038080_000 : S500000x128.Pads (![0, 0] : Fin 2 → Nat) ![3808, 0] ![0, 0] S503808x128
  h_S_ : 0 < S_.numel
  pads_S500000_S503808_038080 : S500000.Pads (![0] : Fin 1 → Nat) ![3808] ![0] S503808
  shapeCasts_S503808_S503808x1 : S503808.ShapeCasts S503808x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  bitsLt_bf16_f32 : FTy.bits .bf16 < FTy.bits .f32
  broadcasts_S4096x1_S4096x128 : S4096x1.Broadcasts S4096x128
  shapeCasts_S128_S1x128 : S128.ShapeCasts S1x128
  broadcasts_S1x128_S4096x128 : S1x128.Broadcasts S4096x128
  reduces_S4096x128_S4096 : S4096x128.Reduces [1] S4096
  shapeCasts_S4096_S4096x1 : S4096.ShapeCasts S4096x1
  slices_S503808x128_S500000x128_0_0 : S503808x128.Slices ![0, 0] S500000x128
  slices_S503808x1_S500000x1_0_0 : S503808x1.Slices ![0, 0] S500000x1
  shapeCasts_S500000x1_S500000 : S500000x1.ShapeCasts S500000
  gather_S16384x16384_S500000x2_S500000_n_01_n_n_01_1_11_wf : GatherDims.WF S16384x16384 S500000x2 S500000 [] [0, 1] [] [0, 1] [] 1 ![1, 1]
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .f32 = 32 ∨ (Rect.block (s := S503808x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S503808x128.size a
  hwx0_1 : ∀ i : grid0.Coords, EltTy.bits .f32 = 32 ∨ (Rect.block (s := S503808x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S503808x1.size a
  hwx0_2 : ∀ i : grid0.Coords, EltTy.bits .f32 = 32 ∨ (Rect.block (s := S503808x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S503808x128.size a
  hwx0_5 : ∀ i : grid0.Coords, EltTy.bits .f32 = 32 ∨ (Rect.block (s := S503808x128) S4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x1.size a ≤ S503808x1.size a
  hwx0_6 : ∀ i : grid0.Coords, EltTy.bits .f32 = 32 ∨ (Rect.block (s := S503808x1) S4096x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S503808x1.size a
  hwx0_7 : ∀ i : grid0.Coords, EltTy.bits .f32 = 32 ∨ (Rect.block (s := S503808x1) S4096x1.size (cc0_transform_7 i) (hinb0_7 i)).WholeWords (EltTy.packing .f32)

variable [Facts₀]

def gather_S16384x16384_S500000x2_S500000_n_01_n_n_01_1_11 : GatherDims S16384x16384 S500000x2 S500000 where
  offsetDims := []
  collapsedSliceDims := [0, 1]
  operandBatchingDims := []
  startIndicesBatchingDims := []
  startIndexMap := [0, 1]
  indexVectorDim := 1
  sliceSizes := ![1, 1]
  wf := gather_S16384x16384_S500000x2_S500000_n_01_n_n_01_1_11_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v16) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S4096x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x128 : Shape := ⟨2, ![500000, 128]⟩
abbrev S16384x16384 : Shape := ⟨2, ![16384, 16384]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x2 : Shape := ⟨2, ![500000, 2]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S16384x16384, .f32⟩
  | .hbm, ⟨4, _⟩ => ⟨S128x128, .f32⟩
  | .hbm, ⟨5, _⟩ => ⟨S128, .f32⟩
  | .hbm, ⟨6, _⟩ => ⟨S1x500000, .i32⟩
  | .hbm, ⟨7, _⟩ => ⟨S1x500000, .i32⟩
  | .hbm, ⟨8, _⟩ => ⟨S500000x128, .f32⟩
  | .hbm, ⟨9, _⟩ => ⟨S500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x1, .i32⟩
  | .hbm, ⟨27, _⟩ => ⟨S500000x2, .i32⟩
  | .hbm, ⟨28, _⟩ => ⟨S500000, .f32⟩
  | .hbm, ⟨29, _⟩ => ⟨S500000x1, .f32⟩
  | .hbm, ⟨30, _⟩ => ⟨S500000x128, .f32⟩
  | .hbm, ⟨31, _⟩ => ⟨S500000x128, .f32⟩
  | .hbm, ⟨32, _⟩ => ⟨S1x128, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S500000x128, .f32⟩
  | .hbm, ⟨39, _⟩ => ⟨S_, .f32⟩
  | .hbm, ⟨40, _⟩ => ⟨S500000, .f32⟩
  | .hbm, ⟨41, _⟩ => ⟨S500000x128, .f32⟩
  | .hbm, ⟨42, _⟩ => ⟨S_, .f32⟩
  | .hbm, ⟨43, _⟩ => ⟨S500000, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S500000x1_S500000x128_0_1 : S500000x1.BroadcastsInDim S500000x128 (![0, 1] : Fin 2 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  reducesTo_S500000x128_S500000_d1 : S500000x128.ReducesTo [1] S500000
  h_S_ : 0 < S_.numel
  dot_S500000x128_S128x128_S500000x128_1_0_0_1_n_n_wf : DotDims.WF S500000x128 S128x128 S500000x128 [1] [0] [0] [1] [] []
  gather_S16384x16384_S500000x2_S500000_n_01_n_n_01_1_11_wf : GatherDims.WF S16384x16384 S500000x2 S500000 [] [0, 1] [] [0, 1] [] 1 ![1, 1]

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S16384x16384_S500000x2_S500000_n_01_n_n_01_1_11 : GatherDims S16384x16384 S500000x2 S500000 where
  offsetDims := []
  collapsedSliceDims := [0, 1]
  operandBatchingDims := []
  startIndicesBatchingDims := []
  startIndexMap := [0, 1]
  indexVectorDim := 1
  sliceSizes := ![1, 1]
  wf := gather_S16384x16384_S500000x2_S500000_n_01_n_n_01_1_11_wf

class Facts : Prop extends Facts₀ where

variable [Facts]
-- ==== Proof.EdgeSpec.lean ====
/-
  The mathematics of one edge of the batch, with no program in sight.  An edge `r` carries a scalar attention weight
  `a` (an entry of the adjacency table picked by the edge's two node indices), a feature row `x` of 128 entries, and the
  layer shares a 128 × 128 projection `K` and a bias `b`.  Its activation at output unit `u` is
  `max (a · (∑ₖ x k · K k u) + b u) 0`, and its score against a feature row `z` is `∑ᵤ act u · z u`.  Each of the three results
  of the layer is one of these two, row by row: nothing in a row depends on any other row.
-/
import Idealize.ShloMosaic.PureOps.Ideal
import Idealize.ShloMosaic.Lib.ValueIdx

noncomputable section

namespace Cert.EdgeSpec

/-- The rectified, attention-weighted projection of one edge's feature row, at output unit `u`. -/
def act (a : EReal) (x : Fin 128 → EReal) (K : Fin 128 → Fin 128 → EReal) (b : Fin 128 → EReal) (u : Fin 128) : EReal :=
  max (a * (∑ k : Fin 128, x k * K k u) + b u) 0

/-- The inner product of that activation with a feature row `z` (the edge's own row for the positive logit, the
    negative sample's row for the negative one). -/
def score (a : EReal) (x z : Fin 128 → EReal) (K : Fin 128 → Fin 128 → EReal) (b : Fin 128 → EReal) : EReal :=
  ∑ u : Fin 128, act a x K b u * z u

end Cert.EdgeSpec

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Body.lean ====
/-
  What the kernel body stores for one tile of 4096 edges, read one entry at a time at the exact values.

  The tile's first store is, at (p, q), the activation of row p at unit q: the product of the feature tile with the
  projection (a matrix product into a zero accumulator, so the plain sum over the contracted index; the change of
  float format in front of it is the identity on exact values) times the row's attention weight, broadcast along
  the row, plus the bias, broadcast along the column, rectified against zero.  The other two stores are, at (p, 0),
  the row sums of that activation times the feature tile and times the negative-sample tile.
-/
import proofs.«112332_j14688788152633_1_alg».proof.Proof.Gen.KernelIdeal.Skeleton
import proofs.«112332_j14688788152633_1_alg».proof.Proof.EdgeSpec
import proofs.«112332_j14688788152633_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.EdgeSpec

/-! ## The tile's matrix product at an entry -/

/-- The product's left operand is read in the output's row, -/
theorem lhs_axis0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- at the contracted index along its columns; -/
theorem lhs_axis1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- the right operand at the contracted index along its rows, -/
theorem rhs_axis0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- in the output's column. -/
theorem rhs_axis1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The tile's product into the zero accumulator, at (p, q): the sum over k of left (p, k) times right (k, q). -/
theorem tile_product (l : FVec Ideal S4096x128 .bf16) (r : FVec Ideal S128x128 .bf16) (p : Fin 4096) (q : Fin 128) :
    matmul dot_S4096x128_S128x128_S4096x128_1_0_0_1_n_n none l r (constant (F := Ideal) S4096x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## A row sum kept as a column -/

/-- The sum of a tile along its rows, kept as a column, reads at (p, 0) the sum over the row's 128 entries. -/
theorem row_sum_column (v : FVec Ideal S4096x128 .f32) (hacc : (0x00000000#32 : BitVec 32) = 0x00000000#32) (p : Fin 4096) :
    shapeCast S4096x1 (multiReduction .add [1] S4096 v 0x00000000#32 reduces_S4096x128_S4096 (.inl rfl) hacc) shapeCasts_S4096_S4096x1 (ix2 p (0 : Fin 1))
      = ∑ u : Fin 128, v (ix2 p u) := by
  refine (Cert.LibKeepdims.shapeCast_a_a1_apply _ shapeCasts_S4096_S4096x1 p (0 : Fin 1)).trans ?_
  refine (Ideal.multiReduction_add_single v 0x00000000#32 reduces_S4096x128_S4096 (.inl rfl) hacc (ix1 p)).trans ?_
  refine Finset.sum_congr rfl fun u _ => ?_
  exact congrArg v (funext fun a => Fin.ext (by match a with | ⟨0, _⟩ => rfl | ⟨1, _⟩ => rfl))

/-! ## The three stores at an entry -/

/-- The first store at (p, q) is row p's activation at unit q. -/
theorem activation_at (v0 : FVec Ideal S4096x128 .f32) (v4 : FVec Ideal S4096x1 .f32) (v6 : FVec Ideal S128x128 .f32) (v7 : FVec Ideal S128 .f32)
    (p : Fin 4096) (q : Fin 128) :
    k0_pay2 (F := Ideal) v0 v4 v6 v7 (ix2 p q)
      = act (v4 (ix2 p (0 : Fin 1))) (fun k => v0 (ix2 p k)) (fun k u => v6 (ix2 k u)) (fun u => v7 (ix1 u)) q := by
  unfold k0_pay2 k0_pay1 act
  rw [maximumf_apply, addf_apply, mulf_apply, broadcast_apply]
  rw [Cert.LibKeepdims.broadcastTo_a1_ab_apply _ broadcasts_S4096x1_S4096x128 p q, shapeCast_self,
    broadcastTo_1b_ab_apply _ broadcasts_S1x128_S4096x128 p q, shapeCast_a_1a_apply v7 shapeCasts_S128_S1x128 (0 : Fin 1) q,
    tile_product]
  simp only [truncf_apply, shapeCast_self]
  exact congrArg (max _) Ideal.ofBits_zero_f32

/-- The second store at (p, 0) is row p's score against the feature tile itself. -/
theorem pos_score_at (v0 : FVec Ideal S4096x128 .f32) (v4 : FVec Ideal S4096x1 .f32) (v6 : FVec Ideal S128x128 .f32) (v7 : FVec Ideal S128 .f32)
    (p : Fin 4096) :
    k0_pay3 (F := Ideal) v0 v4 v6 v7 (ix2 p (0 : Fin 1))
      = score (v4 (ix2 p (0 : Fin 1))) (fun k => v0 (ix2 p k)) (fun k => v0 (ix2 p k)) (fun k u => v6 (ix2 k u)) (fun u => v7 (ix1 u)) := by
  unfold k0_pay3 score
  refine (row_sum_column _ rfl p).trans ?_
  refine Finset.sum_congr rfl fun u _ => ?_
  rw [mulf_apply, activation_at]
  unfold k0_pay1
  rw [shapeCast_self]

/-- The third store at (p, 0) is row p's score against the negative-sample tile. -/
theorem neg_score_at (v0 v2 : FVec Ideal S4096x128 .f32) (v4 : FVec Ideal S4096x1 .f32) (v6 : FVec Ideal S128x128 .f32) (v7 : FVec Ideal S128 .f32)
    (p : Fin 4096) :
    k0_pay4 (F := Ideal) v0 v2 v4 v6 v7 (ix2 p (0 : Fin 1))
      = score (v4 (ix2 p (0 : Fin 1))) (fun k => v0 (ix2 p k)) (fun k => v2 (ix2 p k)) (fun k u => v6 (ix2 k u)) (fun u => v7 (ix1 u)) := by
  unfold k0_pay4 score
  refine (row_sum_column _ rfl p).trans ?_
  refine Finset.sum_congr rfl fun u _ => ?_
  rw [mulf_apply, activation_at, shapeCast_self]

end Cert.KernelIdeal.Body

end
-- ==== Proof.Blocks.lean ====
/-
  From tiles to arrays.  The batch is padded to 503808 = 123 · 4096 rows and cut into 123 tiles of 4096 rows; grid point
  t works on rows 4096·t … 4096·t + 4095 of the two padded feature arrays and of the padded attention column, and on the
  whole projection and bias, and writes back rows 4096·t … of the three result arrays.  Row r of each result depends only
  on row r of the inputs, so what point t writes is the restriction to its rows of ONE function of the whole arrays, and
  since the 123 tiles cover every row, each result array ends holding that function.
-/
import proofs.«112332_j14688788152633_1_alg».proof.Proof.Gen.KernelIdeal.Frame
import proofs.«112332_j14688788152633_1_alg».proof.Proof.Body
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.EdgeSpec

variable (m : (ℓ : Loc nD τ sig) → Buf (Elt Ideal) ℓ)

/-! ## The arrays the tiles are cut from, and the three results row by row -/

/-- The padded feature rows, the padded negative-sample rows, the padded attention column, the projection and the bias,
    as the kernel finds them. -/
abbrev xpad (c : Dev nD) : FVec Ideal S503808x128 .f32 := V m c main_v16
abbrev ypad (c : Dev nD) : FVec Ideal S503808x128 .f32 := V m c main_v17
abbrev apad (c : Dev nD) : FVec Ideal S503808x1 .f32 := V m c main_v19
abbrev kmat (c : Dev nD) : FVec Ideal S128x128 .f32 := V m c main_arg4
abbrev bvec (c : Dev nD) : FVec Ideal S128 .f32 := V m c main_arg5

/-- Row r's activation at unit u, its score against its own features, and against the negative sample's. -/
def rowAct (c : Dev nD) (r : Fin 503808) (u : Fin 128) : EReal :=
  act (apad m c (ix2 r (0 : Fin 1))) (fun k => xpad m c (ix2 r k)) (fun k u => kmat m c (ix2 k u)) (fun u => bvec m c (ix1 u)) u
def rowPos (c : Dev nD) (r : Fin 503808) : EReal :=
  score (apad m c (ix2 r (0 : Fin 1))) (fun k => xpad m c (ix2 r k)) (fun k => xpad m c (ix2 r k)) (fun k u => kmat m c (ix2 k u)) (fun u => bvec m c (ix1 u))
def rowNeg (c : Dev nD) (r : Fin 503808) : EReal :=
  score (apad m c (ix2 r (0 : Fin 1))) (fun k => xpad m c (ix2 r k)) (fun k => ypad m c (ix2 r k)) (fun k u => kmat m c (ix2 k u)) (fun u => bvec m c (ix1 u))

/-- The three padded result arrays. -/
def actArr (c : Dev nD) : FVec Ideal S503808x128 .f32 := fun i => rowAct m c ⟨(i 0).val, (i 0).isLt⟩ ⟨(i 1).val, (i 1).isLt⟩
def posArr (c : Dev nD) : FVec Ideal S503808x1 .f32 := fun i => rowPos m c ⟨(i 0).val, (i 0).isLt⟩
def negArr (c : Dev nD) : FVec Ideal S503808x1 .f32 := fun i => rowNeg m c ⟨(i 0).val, (i 0).isLt⟩

/-! ## Which rows a tile holds -/

theorem hz2 : (![0, 0] : Fin 2 → Nat) = fun _ => 0 := funext fun a => by fin_cases a <;> rfl
theorem hz1 : (![0] : Fin 1 → Nat) = fun _ => 0 := funext fun a => by fin_cases a <;> rfl

/-- At grid point t the row-tiled windows are on block (t, 0) and the shared ones on block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Entry (p, k) of point t's feature tile is entry (4096·t + p, k) of the padded features. -/
theorem xblk_apply (c : Dev nD) (t : Fin cfg0.N) (p : Fin 4096) (k : Fin 128) (r : Fin 503808) (hr : r.val = 4096 * t.val + p.val) :
    (iblk m c 0 t : FVec Ideal S4096x128 .f32) (ix2 p k) = xpad m c (ix2 r k) := by
  obtain ⟨e0, e1, -⟩ := idx_facts t
  unfold iblk
  rw [View.read_apply]
  show V m c main_v16 _ = V m c main_v16 _
  congr 1
  funext a
  apply Fin.ext
  match a with
  | ⟨0, _⟩ => show win0_0.index t (0 : Fin 2) * 4096 + 1 * p.val = r.val; rw [e0, hr]; omega
  | ⟨1, _⟩ => show win0_0.index t (1 : Fin 2) * 128 + 1 * k.val = k.val; rw [e1]; omega

/-- The same for the negative-sample tile, -/
theorem yblk_apply (c : Dev nD) (t : Fin cfg0.N) (p : Fin 4096) (k : Fin 128) (r : Fin 503808) (hr : r.val = 4096 * t.val + p.val) :
    (iblk m c 1 t : FVec Ideal S4096x128 .f32) (ix2 p k) = ypad m c (ix2 r k) := by
  obtain ⟨-, -, e0, e1, -⟩ := idx_facts t
  unfold iblk
  rw [View.read_apply]
  show V m c main_v17 _ = V m c main_v17 _
  congr 1
  funext a
  apply Fin.ext
  match a with
  | ⟨0, _⟩ => show win0_1.index t (0 : Fin 2) * 4096 + 1 * p.val = r.val; rw [e0, hr]; omega
  | ⟨1, _⟩ => show win0_1.index t (1 : Fin 2) * 128 + 1 * k.val = k.val; rw [e1]; omega

/-- and for the tile of the attention column: its entry (p, 0) is entry (4096·t + p, 0) of the padded column. -/
theorem ablk_apply (c : Dev nD) (t : Fin cfg0.N) (p : Fin 4096) (r : Fin 503808) (hr : r.val = 4096 * t.val + p.val) :
    (iblk m c 2 t : FVec Ideal S4096x1 .f32) (ix2 p (0 : Fin 1)) = apad m c (ix2 r (0 : Fin 1)) := by
  obtain ⟨-, -, -, -, e0, e1, -⟩ := idx_facts t
  unfold iblk
  rw [View.read_apply]
  show V m c main_v19 _ = V m c main_v19 _
  congr 1
  funext a
  apply Fin.ext
  match a with
  | ⟨0, _⟩ => show win0_2.index t (0 : Fin 2) * 4096 + 1 * p.val = r.val; rw [e0, hr]; omega
  | ⟨1, _⟩ => show win0_2.index t (1 : Fin 2) * 1 + 1 * 0 = 0; rw [e1]

/-- Every point sees the whole projection -/
theorem kblk_apply (c : Dev nD) (t : Fin cfg0.N) (k u : Fin 128) :
    (iblk m c 3 t : FVec Ideal S128x128 .f32) (ix2 k u) = kmat m c (ix2 k u) := by
  obtain ⟨-, -, -, -, -, -, e0, e1, -⟩ := idx_facts t
  unfold iblk
  rw [View.read_apply]
  show V m c main_arg4 _ = V m c main_arg4 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * u.val = u.val; rw [e1]; omega

/-- and the whole bias. -/
theorem bblk_apply (c : Dev nD) (t : Fin cfg0.N) (u : Fin 128) :
    (iblk m c 4 t : FVec Ideal S128 .f32) (ix1 u) = bvec m c (ix1 u) := by
  obtain ⟨-, -, -, -, -, -, -, -, e0, -⟩ := idx_facts t
  unfold iblk
  rw [View.read_apply]
  show V m c main_arg5 _ = V m c main_arg5 _
  congr 1
  funext a
  apply Fin.ext
  match a with
  | ⟨0, _⟩ => show win0_4.index t (0 : Fin 1) * 128 + 1 * u.val = u.val; rw [e0]; omega

/-! ## A tile's rows of the three results -/

/-- Row p of point t's tile has row 4096·t + p's activation, -/
theorem act_tile (c : Dev nD) (t : Fin cfg0.N) (p : Fin 4096) (q : Fin 128) (r : Fin 503808) (q' : Fin 128)
    (hr : r.val = 4096 * t.val + p.val) (hq : q'.val = q.val) :
    act ((iblk m c 2 t : FVec Ideal S4096x1 .f32) (ix2 p (0 : Fin 1))) (fun k => (iblk m c 0 t : FVec Ideal S4096x128 .f32) (ix2 p k))
        (fun k u => (iblk m c 3 t : FVec Ideal S128x128 .f32) (ix2 k u)) (fun u => (iblk m c 4 t : FVec Ideal S128 .f32) (ix1 u)) q
      = rowAct m c r q' := by
  obtain rfl : q' = q := Fin.ext hq
  unfold rowAct
  rw [ablk_apply m c t p r hr]
  simp only [xblk_apply m c t p _ r hr, kblk_apply, bblk_apply]

/-- its score against its own features, -/
theorem pos_tile (c : Dev nD) (t : Fin cfg0.N) (p : Fin 4096) (r : Fin 503808) (hr : r.val = 4096 * t.val + p.val) :
    score ((iblk m c 2 t : FVec Ideal S4096x1 .f32) (ix2 p (0 : Fin 1))) (fun k => (iblk m c 0 t : FVec Ideal S4096x128 .f32) (ix2 p k))
        (fun k => (iblk m c 0 t : FVec Ideal S4096x128 .f32) (ix2 p k))
        (fun k u => (iblk m c 3 t : FVec Ideal S128x128 .f32) (ix2 k u)) (fun u => (iblk m c 4 t : FVec Ideal S128 .f32) (ix1 u))
      = rowPos m c r := by
  unfold rowPos
  rw [ablk_apply m c t p r hr]
  simp only [xblk_apply m c t p _ r hr, kblk_apply, bblk_apply]

/-- and its score against the negative sample's. -/
theorem neg_tile (c : Dev nD) (t : Fin cfg0.N) (p : Fin 4096) (r : Fin 503808) (hr : r.val = 4096 * t.val + p.val) :
    score ((iblk m c 2 t : FVec Ideal S4096x1 .f32) (ix2 p (0 : Fin 1))) (fun k => (iblk m c 0 t : FVec Ideal S4096x128 .f32) (ix2 p k))
        (fun k => (iblk m c 1 t : FVec Ideal S4096x128 .f32) (ix2 p k))
        (fun k u => (iblk m c 3 t : FVec Ideal S128x128 .f32) (ix2 k u)) (fun u => (iblk m c 4 t : FVec Ideal S128 .f32) (ix1 u))
      = rowNeg m c r := by
  unfold rowNeg
  rw [ablk_apply m c t p r hr]
  simp only [xblk_apply m c t p _ r hr, yblk_apply m c t p _ r hr, kblk_apply, bblk_apply]

/-! ## What each point writes back -/

/-- Point t writes back its rows of the activation array. -/
theorem flushed_act (c : Dev nD) (t : Fin cfg0.N) :
    (dats m 0 c).flushed 5 t = ((cfg0.win 5).blk t).view.read (Elt Ideal) (actArr m c) := by
  show (cfg0.win 5).cut (grid0.coords t) ((dats m 0 c).after 5 t) = _
  rw [after0_5]
  unfold out0_5
  rw [View.canon_unit_zero hz2]
  simp only [View.ld_unit_zero (S := S4096x128) hz2, View.ld_unit_zero (S := S4096x1) hz2, View.ld_unit_zero (S := S128x128) hz2, View.ld_unit_zero (S := S128) hz1]
  obtain ⟨-, -, -, -, -, -, -, -, -, e0, e1, -⟩ := idx_facts t
  funext j
  obtain ⟨p, q, rfl⟩ : ∃ (p : Fin 4096) (q : Fin 128), j = ix2 p q := ⟨j 0, j 1, eq_ix2 j⟩
  refine (Body.activation_at (iblk m c 0 t) (iblk m c 2 t) (iblk m c 3 t) (iblk m c 4 t) p q).trans ?_
  refine act_tile m c t p q _ _ ?_ ?_
  · show win0_5.index t (0 : Fin 2) * 4096 + 1 * p.val = 4096 * t.val + p.val; rw [e0]; omega
  · show win0_5.index t (1 : Fin 2) * 128 + 1 * q.val = q.val; rw [e1]; omega

/-- Point t writes back its rows of the positive-score column, -/
theorem flushed_pos (c : Dev nD) (t : Fin cfg0.N) :
    (dats m 0 c).flushed 6 t = ((cfg0.win 6).blk t).view.read (Elt Ideal) (posArr m c) := by
  show (cfg0.win 6).cut (grid0.coords t) ((dats m 0 c).after 6 t) = _
  rw [after0_6]
  unfold out0_6
  rw [View.canon_unit_zero hz2]
  simp only [View.ld_unit_zero (S := S4096x128) hz2, View.ld_unit_zero (S := S4096x1) hz2, View.ld_unit_zero (S := S128x128) hz2, View.ld_unit_zero (S := S128) hz1]
  obtain ⟨-, -, -, -, -, -, -, -, -, -, -, e0, e1, -⟩ := idx_facts t
  funext j
  obtain ⟨p, u, rfl⟩ : ∃ (p : Fin 4096) (u : Fin 1), j = ix2 p u := ⟨j 0, j 1, eq_ix2 j⟩
  obtain rfl : u = 0 := Subsingleton.elim _ _
  refine (Body.pos_score_at (iblk m c 0 t) (iblk m c 2 t) (iblk m c 3 t) (iblk m c 4 t) p).trans ?_
  refine pos_tile m c t p _ ?_
  show win0_6.index t (0 : Fin 2) * 4096 + 1 * p.val = 4096 * t.val + p.val; rw [e0]; omega

/-- and of the negative-score column. -/
theorem flushed_neg (c : Dev nD) (t : Fin cfg0.N) :
    (dats m 0 c).flushed 7 t = ((cfg0.win 7).blk t).view.read (Elt Ideal) (negArr m c) := by
  show (cfg0.win 7).cut (grid0.coords t) ((dats m 0 c).after 7 t) = _
  rw [after0_7]
  unfold out0_7
  rw [View.canon_unit_zero hz2]
  simp only [View.ld_unit_zero (S := S4096x128) hz2, View.ld_unit_zero (S := S4096x1) hz2, View.ld_unit_zero (S := S128x128) hz2, View.ld_unit_zero (S := S128) hz1]
  obtain ⟨-, -, -, -, -, -, -, -, -, -, -, -, -, e0, e1⟩ := idx_facts t
  funext j
  obtain ⟨p, u, rfl⟩ : ∃ (p : Fin 4096) (u : Fin 1), j = ix2 p u := ⟨j 0, j 1, eq_ix2 j⟩
  obtain rfl : u = 0 := Subsingleton.elim _ _
  refine (Body.neg_score_at (iblk m c 0 t) (iblk m c 1 t) (iblk m c 2 t) (iblk m c 3 t) (iblk m c 4 t) p).trans ?_
  refine neg_tile m c t p _ ?_
  show win0_7.index t (0 : Fin 2) * 4096 + 1 * p.val = 4096 * t.val + p.val; rw [e0]; omega

/-! ## The tiles cover every row -/

/-- An index is in point t's tile of the activation array iff each coordinate is in the tile's range. -/
theorem mem_act_tile (t : Fin cfg0.N) (i : S503808x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v20_0).slice (win0_5.rect t)).set ↔ _
  rw [View.set_slice_whole, Rect.mem_set_unit]
  exact Iff.rfl
theorem mem_pos_tile (t : Fin cfg0.N) (i : S503808x1.Idx) :
    i ∈ ((cfg0.win 6).blk t).view.set ↔ ∀ a : Fin 2, win0_6.index t a * S4096x1.size a ≤ (i a).val ∧ (i a).val < win0_6.index t a * S4096x1.size a + S4096x1.size a := by
  show i ∈ ((View.whole main_v20_1).slice (win0_6.rect t)).set ↔ _
  rw [View.set_slice_whole, Rect.mem_set_unit]
  exact Iff.rfl
theorem mem_neg_tile (t : Fin cfg0.N) (i : S503808x1.Idx) :
    i ∈ ((cfg0.win 7).blk t).view.set ↔ ∀ a : Fin 2, win0_7.index t a * S4096x1.size a ≤ (i a).val ∧ (i a).val < win0_7.index t a * S4096x1.size a + S4096x1.size a := by
  show i ∈ ((View.whole main_v20_2).slice (win0_7.rect t)).set ↔ _
  rw [View.set_slice_whole, Rect.mem_set_unit]
  exact Iff.rfl

/-- Row r lies in the tile of point r / 4096. -/
theorem cover_act (i : S503808x128.Idx) : ∃ t : Fin cfg0.N, (cfg0.win 5).flush t = true ∧ i ∈ ((cfg0.win 5).blk t).view.set := by
  have hi0 : (i 0).val < 503808 := (i 0).isLt
  have hi1 : (i 1).val < 128 := (i 1).isLt
  have hN : cfg0.N = 123 := N_0
  obtain ⟨t, ht⟩ : ∃ t : Fin cfg0.N, t.val = (i 0).val / 4096 := ⟨⟨(i 0).val / 4096, by rw [hN]; omega⟩, rfl⟩
  refine ⟨t, flush0_5 t, ?_⟩
  rw [mem_act_tile]
  obtain ⟨-, -, -, -, -, -, -, -, -, e0, e1, -⟩ := idx_facts t
  intro a
  match a with
  | ⟨0, _⟩ => show win0_5.index t (0 : Fin 2) * 4096 ≤ (i 0).val ∧ (i 0).val < win0_5.index t (0 : Fin 2) * 4096 + 4096; rw [e0, ht]; omega
  | ⟨1, _⟩ => show win0_5.index t (1 : Fin 2) * 128 ≤ (i 1).val ∧ (i 1).val < win0_5.index t (1 : Fin 2) * 128 + 128; rw [e1]; omega
theorem cover_pos (i : S503808x1.Idx) : ∃ t : Fin cfg0.N, (cfg0.win 6).flush t = true ∧ i ∈ ((cfg0.win 6).blk t).view.set := by
  have hi0 : (i 0).val < 503808 := (i 0).isLt
  have hi1 : (i 1).val < 1 := (i 1).isLt
  have hN : cfg0.N = 123 := N_0
  obtain ⟨t, ht⟩ : ∃ t : Fin cfg0.N, t.val = (i 0).val / 4096 := ⟨⟨(i 0).val / 4096, by rw [hN]; omega⟩, rfl⟩
  refine ⟨t, flush0_6 t, ?_⟩
  rw [mem_pos_tile]
  obtain ⟨-, -, -, -, -, -, -, -, -, -, -, e0, e1, -⟩ := idx_facts t
  intro a
  match a with
  | ⟨0, _⟩ => show win0_6.index t (0 : Fin 2) * 4096 ≤ (i 0).val ∧ (i 0).val < win0_6.index t (0 : Fin 2) * 4096 + 4096; rw [e0, ht]; omega
  | ⟨1, _⟩ => show win0_6.index t (1 : Fin 2) * 1 ≤ (i 1).val ∧ (i 1).val < win0_6.index t (1 : Fin 2) * 1 + 1; rw [e1]; omega
theorem cover_neg (i : S503808x1.Idx) : ∃ t : Fin cfg0.N, (cfg0.win 7).flush t = true ∧ i ∈ ((cfg0.win 7).blk t).view.set := by
  have hi0 : (i 0).val < 503808 := (i 0).isLt
  have hi1 : (i 1).val < 1 := (i 1).isLt
  have hN : cfg0.N = 123 := N_0
  obtain ⟨t, ht⟩ : ∃ t : Fin cfg0.N, t.val = (i 0).val / 4096 := ⟨⟨(i 0).val / 4096, by rw [hN]; omega⟩, rfl⟩
  refine ⟨t, flush0_7 t, ?_⟩
  rw [mem_neg_tile]
  obtain ⟨-, -, -, -, -, -, -, -, -, -, -, -, -, e0, e1⟩ := idx_facts t
  intro a
  match a with
  | ⟨0, _⟩ => show win0_7.index t (0 : Fin 2) * 4096 ≤ (i 0).val ∧ (i 0).val < win0_7.index t (0 : Fin 2) * 4096 + 4096; rw [e0, ht]; omega
  | ⟨1, _⟩ => show win0_7.index t (1 : Fin 2) * 1 ≤ (i 1).val ∧ (i 1).val < win0_7.index t (1 : Fin 2) * 1 + 1; rw [e1]; omega

/-! ## The three padded result arrays after the kernel -/

theorem final_act (c : Dev nD) : (dats m 0 c).arrAt 5 cfg0.N = actArr m c :=
  (dats m 0 c).arrAt_eq_of_cover 5 (actArr m c) (fun t _ => flushed_act m c t) cover_act
theorem final_pos (c : Dev nD) : (dats m 0 c).arrAt 6 cfg0.N = posArr m c :=
  (dats m 0 c).arrAt_eq_of_cover 6 (posArr m c) (fun t _ => flushed_pos m c t) cover_pos
theorem final_neg (c : Dev nD) : (dats m 0 c).arrAt 7 cfg0.N = negArr m c :=
  (dats m 0 c).arrAt_eq_of_cover 7 (negArr m c) (fun t _ => flushed_neg m c t) cover_neg

end Cert.KernelIdeal.Blocks

end
-- ==== Proof.LibColumnVec.lean ====
/-
  A column `[a, 1]` viewed as the vector `[a]`, read at an index: the vector's entry `i` is the column's entry in row `i`
  (both have row-major position `i`).  The inverse of the keepdims column form.
-/
import Idealize.ShloMosaic.Lib.Pipeline.Value
import Idealize.ShloMosaic.Lib.ValueIdx

noncomputable section

namespace Cert.LibColumnVec

open Idealize.ShloMosaic Idealize.ShloMosaic.ValueIdx

variable {α : Type}

/-- A column `[a, 1]` cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnVec

end
-- ==== Proof.HostSide.lean ====
/-
  The kernel program around its tiles.  Before the kernel the program gathers each edge's attention weight from the
  adjacency table, pads the two feature arrays with 3808 zero rows and the attention vector with 3808 zeros, and views
  the padded vector as a column; after it, it keeps the first 500000 rows of the three padded results and views the two
  score columns as vectors.  So row r < 500000 of each padded input is row r of the argument, and row r of each result is
  row r of the padded result: the edge's activation and its two scores, of the arguments alone.
-/
import proofs.«112332_j14688788152633_1_alg».proof.Proof.Gen.KernelIdeal.Frame
import proofs.«112332_j14688788152633_1_alg».proof.Proof.Blocks
import proofs.«112332_j14688788152633_1_alg».proof.Proof.LibKeepdims
import proofs.«112332_j14688788152633_1_alg».proof.Proof.LibColumnVec
import Idealize.ShloMosaic.Lib.StableHlo.Run
import Idealize.ShloMosaic.Lib.KernelVsHost
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.HostSide

open Cert.KernelIdeal Cert.KernelIdeal.Gen Cert.EdgeSpec

/-! ## The attention weights -/

/-- A vector of node indices as the gather takes it: a negative index counted from the end, as a column. -/
def nodeIdx (h : (⟨S1x500000, .i32⟩ : BufTy).Contents (Elt Ideal)) : (⟨S500000x1, .i32⟩ : BufTy).Contents (Elt Ideal) :=
  broadcastInDim S500000x1 ![0] bcast_S500000_S500000x1_0
    (select (cmpi .slt (shapeCast _ h shapeCasts_S1x500000_S500000) (broadcastInDim S500000 ![] bcast_S_S500000 (constantI S_ 32 0#32)))
      (addi (shapeCast _ h shapeCasts_S1x500000_S500000) (broadcastInDim S500000 ![] bcast_S_S500000 (constantI S_ 32 16384#32)))
      (shapeCast _ h shapeCasts_S1x500000_S500000))

/-- Each edge's attention weight: the adjacency table's entry at the edge's (head, tail) node indices. -/
def attTerm (A : (⟨S16384x16384, .f32⟩ : BufTy).Contents (Elt Ideal)) (h t : (⟨S1x500000, .i32⟩ : BufTy).Contents (Elt Ideal)) :
    (⟨S500000, .f32⟩ : BufTy).Contents (Elt Ideal) :=
  Host.gather gather_S16384x16384_S500000x2_S500000_n_01_n_n_01_1_11 A
    (concatenate S500000x2 1 [⟨S500000x1, nodeIdx h⟩, ⟨S500000x1, nodeIdx t⟩] concatenates_S500000x1_S500000x1_S500000x2_d1)

variable (m : (ℓ : Loc nD τ sig) → Buf (Elt Ideal) ℓ)

/-- The attention weights of the launch's arguments. -/
abbrev att (c : Dev nD) : S500000.Idx → EReal :=
  attTerm (m ((c : Thread nD τ).loc main_arg3)) (m ((c : Thread nD τ).loc main_arg6)) (m ((c : Thread nD τ).loc main_arg7))

/-! ## What the kernel's tiles are cut from -/

theorem xpad_eq (c : Dev nD) : (V m c main_v16 : S503808x128.Idx → EReal)
    = pad S503808x128 ![0, 0] ![3808, 0] ![0, 0] (m ((c : Thread nD τ).loc main_arg1)) (sitofp (F := Ideal) .f32 (constantI S_ 32 0#32)) pads_S500000x128_S503808x128_038080_000 h_S_ := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

theorem ypad_eq (c : Dev nD) : (V m c main_v17 : S503808x128.Idx → EReal)
    = pad S503808x128 ![0, 0] ![3808, 0] ![0, 0] (m ((c : Thread nD τ).loc main_arg2)) (sitofp (F := Ideal) .f32 (constantI S_ 32 0#32)) pads_S500000x128_S503808x128_038080_000 h_S_ := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

set_option maxHeartbeats 1000000 in
theorem apad_eq (c : Dev nD) : (V m c main_v19 : S503808x1.Idx → EReal)
    = shapeCast S503808x1 (pad S503808 ![0] ![3808] ![0] (att m c) (sitofp (F := Ideal) .f32 (constantI S_ 32 0#32)) pads_S500000_S503808_038080 h_S_) shapeCasts_S503808_S503808x1 := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

/-- Row r < 500000 of the padded features is row r of the features, -/
theorem xpad_row (c : Dev nD) (r : Fin 500000) (r' : Fin 503808) (hr : r'.val = r.val) (k : Fin 128) :
    Blocks.xpad m c (ix2 r' k) = (m ((c : Thread nD τ).loc main_arg1) : S500000x128.Idx → EReal) (ix2 r k) := by
  show (V m c main_v16 : S503808x128.Idx → EReal) (ix2 r' k) = _
  rw [xpad_eq]
  refine pad_apply_of_inside _ _ _ _ _ _ _ (ix2 r' k) (ix2 r k) fun a => ?_
  match a with
  | ⟨0, _⟩ => show r'.val = 0 + r.val * (0 + 1); omega
  | ⟨1, _⟩ => show k.val = 0 + k.val * (0 + 1); omega

/-- of the padded negative samples row r of the negative samples, -/
theorem ypad_row (c : Dev nD) (r : Fin 500000) (r' : Fin 503808) (hr : r'.val = r.val) (k : Fin 128) :
    Blocks.ypad m c (ix2 r' k) = (m ((c : Thread nD τ).loc main_arg2) : S500000x128.Idx → EReal) (ix2 r k) := by
  show (V m c main_v17 : S503808x128.Idx → EReal) (ix2 r' k) = _
  rw [ypad_eq]
  refine pad_apply_of_inside _ _ _ _ _ _ _ (ix2 r' k) (ix2 r k) fun a => ?_
  match a with
  | ⟨0, _⟩ => show r'.val = 0 + r.val * (0 + 1); omega
  | ⟨1, _⟩ => show k.val = 0 + k.val * (0 + 1); omega

/-- and of the padded attention column edge r's attention weight. -/
theorem apad_row (c : Dev nD) (r : Fin 500000) (r' : Fin 503808) (hr : r'.val = r.val) :
    Blocks.apad m c (ix2 r' (0 : Fin 1)) = att m c (ix1 r) := by
  show (V m c main_v19 : S503808x1.Idx → EReal) (ix2 r' (0 : Fin 1)) = _
  rw [apad_eq]
  refine (Cert.LibKeepdims.shapeCast_a_a1_apply _ shapeCasts_S503808_S503808x1 r' (0 : Fin 1)).trans ?_
  refine pad_apply_of_inside _ _ _ _ _ _ _ (ix1 r') (ix1 r) fun a => ?_
  match a with
  | ⟨0, _⟩ => show r'.val = 0 + r.val * (0 + 1); omega

/-- The projection and the bias reach the kernel as launched. -/
theorem kmat_eq (c : Dev nD) : Blocks.kmat m c = m ((c : Thread nD τ).loc main_arg4) := V_main_arg4 m c
theorem bvec_eq (c : Dev nD) : Blocks.bvec m c = m ((c : Thread nD τ).loc main_arg5) := V_main_arg5 m c

/-! ## What the program returns, from the padded results -/

theorem tail_act (c : Dev nD) : (Pipeline.afterTail₀ cfgs (dats m) 0 (V0 m) [hostOps1] c main_v21 : S500000x128.Idx → EReal)
    = extractStridedSlice S500000x128 ![0, 0] ((dats m 0 c).arrAt 5 cfg0.N) slices_S503808x128_S500000x128_0_0 := by
  unfold Pipeline.afterTail₀
  show StableHlo.after hostOps1 _ (Proc.devRef .tc main_v21) = _
  after_results
  exact congrArg (fun A : S503808x128.Idx → EReal => extractStridedSlice S500000x128 ![0, 0] A slices_S503808x128_S500000x128_0_0)
    (Pipeline.withArrays_arr spec0 launch0.win.arr_inj c (V0 m c) (fun w => (dats m 0 c).arrAt w cfg0.N) 5)

theorem tail_pos (c : Dev nD) : (Pipeline.afterTail₀ cfgs (dats m) 0 (V0 m) [hostOps1] c main_v23 : S500000.Idx → EReal)
    = shapeCast S500000 (extractStridedSlice S500000x1 ![0, 0] ((dats m 0 c).arrAt 6 cfg0.N) slices_S503808x1_S500000x1_0_0) shapeCasts_S500000x1_S500000 := by
  unfold Pipeline.afterTail₀
  show StableHlo.after hostOps1 _ (Proc.devRef .tc main_v23) = _
  after_results
  exact congrArg (fun A : S503808x1.Idx → EReal => shapeCast S500000 (extractStridedSlice S500000x1 ![0, 0] A slices_S503808x1_S500000x1_0_0) shapeCasts_S500000x1_S500000)
    (Pipeline.withArrays_arr spec0 launch0.win.arr_inj c (V0 m c) (fun w => (dats m 0 c).arrAt w cfg0.N) 6)

theorem tail_neg (c : Dev nD) : (Pipeline.afterTail₀ cfgs (dats m) 0 (V0 m) [hostOps1] c main_v25 : S500000.Idx → EReal)
    = shapeCast S500000 (extractStridedSlice S500000x1 ![0, 0] ((dats m 0 c).arrAt 7 cfg0.N) slices_S503808x1_S500000x1_0_0) shapeCasts_S500000x1_S500000 := by
  unfold Pipeline.afterTail₀
  show StableHlo.after hostOps1 _ (Proc.devRef .tc main_v25) = _
  after_results
  exact congrArg (fun A : S503808x1.Idx → EReal => shapeCast S500000 (extractStridedSlice S500000x1 ![0, 0] A slices_S503808x1_S500000x1_0_0) shapeCasts_S500000x1_S500000)
    (Pipeline.withArrays_arr spec0 launch0.win.arr_inj c (V0 m c) (fun w => (dats m 0 c).arrAt w cfg0.N) 7)

end Cert.KernelIdeal.HostSide

end
-- ==== Proof.EdgeArrays.lean ====
/-
  The layer's three results as whole arrays: the activation array has edge r's activation at unit u in entry (r, u), and
  each score vector has edge r's score in entry r.  Stated over the arrays' literal shapes, for any attention vector.
-/
import proofs.«112332_j14688788152633_1_alg».proof.Proof.EdgeSpec
import Idealize.ShloMosaic.Lib.ValueIdx

noncomputable section

namespace Cert.EdgeSpec

open Idealize.ShloMosaic Idealize.ShloMosaic.ValueIdx

/-- The activation array of a batch of 500000 edges. -/
def actOf (a : (⟨1, ![500000]⟩ : Shape).Idx → EReal) (x : (⟨2, ![500000, 128]⟩ : Shape).Idx → EReal)
    (K : (⟨2, ![128, 128]⟩ : Shape).Idx → EReal) (b : (⟨1, ![128]⟩ : Shape).Idx → EReal) : (⟨2, ![500000, 128]⟩ : Shape).Idx → EReal :=
  fun i => act (a (ix1 ⟨(i 0).val, (i 0).isLt⟩)) (fun k => x (ix2 ⟨(i 0).val, (i 0).isLt⟩ k)) (fun k u => K (ix2 k u)) (fun u => b (ix1 u))
    ⟨(i 1).val, (i 1).isLt⟩

/-- The vector of the edges' scores against the rows of `z`. -/
def scoreOf (a : (⟨1, ![500000]⟩ : Shape).Idx → EReal) (x z : (⟨2, ![500000, 128]⟩ : Shape).Idx → EReal)
    (K : (⟨2, ![128, 128]⟩ : Shape).Idx → EReal) (b : (⟨1, ![128]⟩ : Shape).Idx → EReal) : (⟨1, ![500000]⟩ : Shape).Idx → EReal :=
  fun i => score (a (ix1 ⟨(i 0).val, (i 0).isLt⟩)) (fun k => x (ix2 ⟨(i 0).val, (i 0).isLt⟩ k)) (fun k => z (ix2 ⟨(i 0).val, (i 0).isLt⟩ k))
    (fun k u => K (ix2 k u)) (fun u => b (ix1 u))

end Cert.EdgeSpec

end
-- ==== Proof.KernelRun.lean ====
/-
  The kernel program's three results as functions of its arguments: row r of the returned activation array is row r of
  the padded one, which the tile r / 4096 wrote from row r of the padded inputs, which are row r of the arguments; the two
  returned score vectors likewise.  And the program's run with those results named.
-/
import proofs.«112332_j14688788152633_1_alg».proof.Proof.HostSide
import proofs.«112332_j14688788152633_1_alg».proof.Proof.EdgeArrays

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Results

open Cert.KernelIdeal Cert.KernelIdeal.Gen Cert.KernelIdeal.HostSide Cert.EdgeSpec

variable (m : (ℓ : Loc nD τ sig) → Buf (Elt Ideal) ℓ) (ρ : Dev nD → PrngReg)

/-- The returned activation array. -/
theorem result_act (c : Dev nD) : (Pipeline.afterTail₀ cfgs (dats m) 0 (V0 m) [hostOps1] c main_v21 : S500000x128.Idx → EReal)
    = actOf (att m c) (m ((c : Thread nD τ).loc main_arg1)) (m ((c : Thread nD τ).loc main_arg4)) (m ((c : Thread nD τ).loc main_arg5)) := by
  funext i
  obtain ⟨r, u, rfl⟩ : ∃ (r : Fin 500000) (u : Fin 128), i = ix2 r u := ⟨i 0, i 1, eq_ix2 i⟩
  have hr : r.val < 503808 := by have := r.isLt; omega
  rw [tail_act, Blocks.final_act]
  refine (slice2_axis0_apply 0 (Blocks.actArr m c) slices_S503808x128_S500000x128_0_0 r u ⟨r.val, hr⟩ (Nat.zero_add _).symm).trans ?_
  show Blocks.rowAct m c ⟨r.val, hr⟩ u = act (att m c (ix1 r)) (fun k => (m ((c : Thread nD τ).loc main_arg1) : S500000x128.Idx → EReal) (ix2 r k))
    (fun k u => (m ((c : Thread nD τ).loc main_arg4) : S128x128.Idx → EReal) (ix2 k u)) (fun u => (m ((c : Thread nD τ).loc main_arg5) : S128.Idx → EReal) (ix1 u)) u
  unfold Blocks.rowAct
  rw [apad_row m c r ⟨r.val, hr⟩ rfl]
  simp only [xpad_row m c r ⟨r.val, hr⟩ rfl]
  rw [kmat_eq m c, bvec_eq m c]

/-- The returned positive scores. -/
theorem result_pos (c : Dev nD) : (Pipeline.afterTail₀ cfgs (dats m) 0 (V0 m) [hostOps1] c main_v23 : S500000.Idx → EReal)
    = scoreOf (att m c) (m ((c : Thread nD τ).loc main_arg1)) (m ((c : Thread nD τ).loc main_arg1)) (m ((c : Thread nD τ).loc main_arg4)) (m ((c : Thread nD τ).loc main_arg5)) := by
  funext i
  obtain ⟨r, rfl⟩ : ∃ r : Fin 500000, i = ix1 r := ⟨i 0, eq_ix1 i⟩
  have hr : r.val < 503808 := by have := r.isLt; omega
  rw [tail_pos, Blocks.final_pos]
  refine (Cert.LibColumnVec.shapeCast_a1_a_apply _ shapeCasts_S500000x1_S500000 r).trans ?_
  refine (slice2_axis0_apply 0 (Blocks.posArr m c) slices_S503808x1_S500000x1_0_0 r (0 : Fin 1) ⟨r.val, hr⟩ (Nat.zero_add _).symm).trans ?_
  show Blocks.rowPos m c ⟨r.val, hr⟩ = score (att m c (ix1 r)) (fun k => (m ((c : Thread nD τ).loc main_arg1) : S500000x128.Idx → EReal) (ix2 r k))
    (fun k => (m ((c : Thread nD τ).loc main_arg1) : S500000x128.Idx → EReal) (ix2 r k))
    (fun k u => (m ((c : Thread nD τ).loc main_arg4) : S128x128.Idx → EReal) (ix2 k u)) (fun u => (m ((c : Thread nD τ).loc main_arg5) : S128.Idx → EReal) (ix1 u))
  unfold Blocks.rowPos
  rw [apad_row m c r ⟨r.val, hr⟩ rfl]
  simp only [xpad_row m c r ⟨r.val, hr⟩ rfl]
  rw [kmat_eq m c, bvec_eq m c]

/-- The returned negative scores. -/
theorem result_neg (c : Dev nD) : (Pipeline.afterTail₀ cfgs (dats m) 0 (V0 m) [hostOps1] c main_v25 : S500000.Idx → EReal)
    = scoreOf (att m c) (m ((c : Thread nD τ).loc main_arg1)) (m ((c : Thread nD τ).loc main_arg2)) (m ((c : Thread nD τ).loc main_arg4)) (m ((c : Thread nD τ).loc main_arg5)) := by
  funext i
  obtain ⟨r, rfl⟩ : ∃ r : Fin 500000, i = ix1 r := ⟨i 0, eq_ix1 i⟩
  have hr : r.val < 503808 := by have := r.isLt; omega
  rw [tail_neg, Blocks.final_neg]
  refine (Cert.LibColumnVec.shapeCast_a1_a_apply _ shapeCasts_S500000x1_S500000 r).trans ?_
  refine (slice2_axis0_apply 0 (Blocks.negArr m c) slices_S503808x1_S500000x1_0_0 r (0 : Fin 1) ⟨r.val, hr⟩ (Nat.zero_add _).symm).trans ?_
  show Blocks.rowNeg m c ⟨r.val, hr⟩ = score (att m c (ix1 r)) (fun k => (m ((c : Thread nD τ).loc main_arg1) : S500000x128.Idx → EReal) (ix2 r k))
    (fun k => (m ((c : Thread nD τ).loc main_arg2) : S500000x128.Idx → EReal) (ix2 r k))
    (fun k u => (m ((c : Thread nD τ).loc main_arg4) : S128x128.Idx → EReal) (ix2 k u)) (fun u => (m ((c : Thread nD τ).loc main_arg5) : S128.Idx → EReal) (ix1 u))
  unfold Blocks.rowNeg
  rw [apad_row m c r ⟨r.val, hr⟩ rfl]
  simp only [xpad_row m c r ⟨r.val, hr⟩ rfl, ypad_row m c r ⟨r.val, hr⟩ rfl]
  rw [kmat_eq m c, bvec_eq m c]

/-- Every weakly fair execution of the kernel program ends with the three results at those arrays and the arguments
    unchanged. -/
theorem run : θ_run defs (onTc (τ := τ) (main (F := Ideal))) ⟨m, fun _ => 0, ρ⟩ fun r => ∀ c : Dev nD,
      r.2.mem ((c.tc : Thread nD τ).loc main_v21) = actOf (att m c) (m ((c : Thread nD τ).loc main_arg1)) (m ((c : Thread nD τ).loc main_arg4)) (m ((c : Thread nD τ).loc main_arg5))
      ∧ r.2.mem ((c.tc : Thread nD τ).loc main_v23) = scoreOf (att m c) (m ((c : Thread nD τ).loc main_arg1)) (m ((c : Thread nD τ).loc main_arg1)) (m ((c : Thread nD τ).loc main_arg4)) (m ((c : Thread nD τ).loc main_arg5))
      ∧ r.2.mem ((c.tc : Thread nD τ).loc main_v25) = scoreOf (att m c) (m ((c : Thread nD τ).loc main_arg1)) (m ((c : Thread nD τ).loc main_arg2)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v21 (Pipeline.mem_restRefs_of main_v21 (by decide) (by decide))).trans (result_act m c),
      ((h c).2 main_v23 (Pipeline.mem_restRefs_of main_v23 (by decide) (by decide))).trans (result_pos m c),
      ((h c).2 main_v25 (Pipeline.mem_restRefs_of main_v25 (by decide) (by decide))).trans (result_neg m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Results

end
-- ==== Proof.RefSide.lean ====
/-
  The reference, row by row.  Its first result at (r, u) is edge r's activation at unit u, with the attention weight the
  entry its gather picks for edge r; its second and third results at r are that row's scores against the edge's own
  features and against the negative sample's.  The host's matrix product at an entry is the plain sum over the contracted
  index, and its sums along a row start from the zero they are given.
-/
import proofs.«112332_j14688788152633_1_alg».proof.Proof.Gen.ReferenceIdeal.Read
import proofs.«112332_j14688788152633_1_alg».proof.Proof.EdgeSpec
import proofs.«112332_j14688788152633_1_alg».proof.Proof.EdgeArrays
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.EdgeSpec

/-! ## Which entries each operation reads -/

theorem att_col (r : Fin 500000) (u : Fin 128) : idx_main_v18 (ix2 r u) = ix2 r (0 : Fin 1) :=
  funext fun a => Fin.ext (by match a with | ⟨0, _⟩ => rfl | ⟨1, _⟩ => rfl)
theorem att_row (r : Fin 500000) : idx_main_v17 (ix2 r (0 : Fin 1)) = ix1 r :=
  funext fun a => Fin.ext (by match a with | ⟨0, _⟩ => rfl)
theorem bias_row (r : Fin 500000) (u : Fin 128) : idx_main_v21 (ix2 r u) = ix2 (0 : Fin 1) u :=
  funext fun a => Fin.ext (by match a with | ⟨0, _⟩ => rfl | ⟨1, _⟩ => rfl)
theorem bias_entry (u : Fin 128) : idx_main_v20 (ix2 (0 : Fin 1) u) = ix1 u :=
  funext fun a => Fin.ext (by match a with | ⟨0, _⟩ => rfl)
theorem prod_left (r : Fin 500000) (u k : Fin 128) : lidx_main_v0 (ix2 r u) k = ix2 r k :=
  funext fun a => Fin.ext (by match a with | ⟨0, _⟩ => rfl | ⟨1, _⟩ => rfl)
theorem prod_right (r : Fin 500000) (u k : Fin 128) : ridx_main_v0 (ix2 r u) k = ix2 k u :=
  funext fun a => Fin.ext (by match a with | ⟨0, _⟩ => rfl | ⟨1, _⟩ => rfl)
theorem pos_entry (r : Fin 500000) (u : Fin 128) : idx_main_v25 (ix1 r) u = ix2 r u :=
  funext fun a => Fin.ext (by match a with | ⟨0, _⟩ => rfl | ⟨1, _⟩ => rfl)
theorem neg_entry (r : Fin 500000) (u : Fin 128) : idx_main_v27 (ix1 r) u = ix2 r u :=
  funext fun a => Fin.ext (by match a with | ⟨0, _⟩ => rfl | ⟨1, _⟩ => rfl)

/-! ## The three results -/

/-- The first result at (r, u): edge r's activation at unit u. -/
theorem ref_act (x1 : (⟨S500000x128, .f32⟩ : BufTy).Contents (Elt Ideal)) (x3 : (⟨S16384x16384, .f32⟩ : BufTy).Contents (Elt Ideal))
    (x4 : (⟨S128x128, .f32⟩ : BufTy).Contents (Elt Ideal)) (x5 : (⟨S128, .f32⟩ : BufTy).Contents (Elt Ideal))
    (x6 x7 : (⟨S1x500000, .i32⟩ : BufTy).Contents (Elt Ideal)) (r : Fin 500000) (u : Fin 128) :
    val_main_v23 (F := Ideal) x1 x3 x4 x5 x6 x7 (ix2 r u)
      = act (val_main_v16 (F := Ideal) x3 x6 x7 (ix1 r)) (fun k => x1 (ix2 r k)) (fun k u => x4 (ix2 k u)) (fun u => x5 (ix1 u)) u := by
  rw [val_main_v23_apply, val_main_v22_apply, val_main_v19_apply, val_main_v18_apply, val_main_v17_apply, val_main_v21_apply,
    val_main_v20_apply, val_main_v0_apply, val_main_call0_v0_apply, val_main_call0_cst_apply]
  unfold act
  simp only [att_col, att_row, bias_row, bias_entry, prod_left, prod_right, Ideal.mulf_def, Ideal.addf_def, Ideal.maximumf_def,
    Ideal.ofBits_def, Ideal.ofBits_zero_f32]

/-- The second result at r: edge r's score against its own features. -/
theorem ref_pos (x1 : (⟨S500000x128, .f32⟩ : BufTy).Contents (Elt Ideal)) (x3 : (⟨S16384x16384, .f32⟩ : BufTy).Contents (Elt Ideal))
    (x4 : (⟨S128x128, .f32⟩ : BufTy).Contents (Elt Ideal)) (x5 : (⟨S128, .f32⟩ : BufTy).Contents (Elt Ideal))
    (x6 x7 : (⟨S1x500000, .i32⟩ : BufTy).Contents (Elt Ideal)) (r : Fin 500000) :
    val_main_v25 (F := Ideal) x1 x3 x4 x5 x6 x7 (ix1 r)
      = score (val_main_v16 (F := Ideal) x3 x6 x7 (ix1 r)) (fun k => x1 (ix2 r k)) (fun k => x1 (ix2 r k)) (fun k u => x4 (ix2 k u)) (fun u => x5 (ix1 u)) := by
  rw [val_main_v25_apply, val_main_cst_apply]
  unfold score
  simp only [pos_entry, val_main_v24_apply, ref_act, Ideal.mulf_def, Ideal.ofBits_def, Ideal.ofBits_zero_f32, zero_add]

/-- The third result at r: edge r's score against the negative sample's features. -/
theorem ref_neg (x1 x2 : (⟨S500000x128, .f32⟩ : BufTy).Contents (Elt Ideal)) (x3 : (⟨S16384x16384, .f32⟩ : BufTy).Contents (Elt Ideal))
    (x4 : (⟨S128x128, .f32⟩ : BufTy).Contents (Elt Ideal)) (x5 : (⟨S128, .f32⟩ : BufTy).Contents (Elt Ideal))
    (x6 x7 : (⟨S1x500000, .i32⟩ : BufTy).Contents (Elt Ideal)) (r : Fin 500000) :
    val_main_v27 (F := Ideal) x1 x2 x3 x4 x5 x6 x7 (ix1 r)
      = score (val_main_v16 (F := Ideal) x3 x6 x7 (ix1 r)) (fun k => x1 (ix2 r k)) (fun k => x2 (ix2 r k)) (fun k u => x4 (ix2 k u)) (fun u => x5 (ix1 u)) := by
  rw [val_main_v27_apply, val_main_cst_3_apply]
  unfold score
  simp only [neg_entry, val_main_v26_apply, ref_act, Ideal.mulf_def, Ideal.ofBits_def, Ideal.ofBits_zero_f32, zero_add]

/-! ## The three results as whole arrays -/

theorem ref_actOf (x1 : (⟨S500000x128, .f32⟩ : BufTy).Contents (Elt Ideal)) (x3 : (⟨S16384x16384, .f32⟩ : BufTy).Contents (Elt Ideal))
    (x4 : (⟨S128x128, .f32⟩ : BufTy).Contents (Elt Ideal)) (x5 : (⟨S128, .f32⟩ : BufTy).Contents (Elt Ideal))
    (x6 x7 : (⟨S1x500000, .i32⟩ : BufTy).Contents (Elt Ideal)) :
    val_main_v23 (F := Ideal) x1 x3 x4 x5 x6 x7 = actOf (val_main_v16 (F := Ideal) x3 x6 x7) x1 x4 x5 := by
  funext i
  obtain ⟨r, u, rfl⟩ : ∃ (r : Fin 500000) (u : Fin 128), i = ix2 r u := ⟨i 0, i 1, eq_ix2 i⟩
  exact ref_act x1 x3 x4 x5 x6 x7 r u

theorem ref_posOf (x1 : (⟨S500000x128, .f32⟩ : BufTy).Contents (Elt Ideal)) (x3 : (⟨S16384x16384, .f32⟩ : BufTy).Contents (Elt Ideal))
    (x4 : (⟨S128x128, .f32⟩ : BufTy).Contents (Elt Ideal)) (x5 : (⟨S128, .f32⟩ : BufTy).Contents (Elt Ideal))
    (x6 x7 : (⟨S1x500000, .i32⟩ : BufTy).Contents (Elt Ideal)) :
    val_main_v25 (F := Ideal) x1 x3 x4 x5 x6 x7 = scoreOf (val_main_v16 (F := Ideal) x3 x6 x7) x1 x1 x4 x5 := by
  funext i
  obtain ⟨r, rfl⟩ : ∃ r : Fin 500000, i = ix1 r := ⟨i 0, eq_ix1 i⟩
  exact ref_pos x1 x3 x4 x5 x6 x7 r

theorem ref_negOf (x1 x2 : (⟨S500000x128, .f32⟩ : BufTy).Contents (Elt Ideal)) (x3 : (⟨S16384x16384, .f32⟩ : BufTy).Contents (Elt Ideal))
    (x4 : (⟨S128x128, .f32⟩ : BufTy).Contents (Elt Ideal)) (x5 : (⟨S128, .f32⟩ : BufTy).Contents (Elt Ideal))
    (x6 x7 : (⟨S1x500000, .i32⟩ : BufTy).Contents (Elt Ideal)) :
    val_main_v27 (F := Ideal) x1 x2 x3 x4 x5 x6 x7 = scoreOf (val_main_v16 (F := Ideal) x3 x6 x7) x1 x2 x4 x5 := by
  funext i
  obtain ⟨r, rfl⟩ : ∃ r : Fin 500000, i = ix1 r := ⟨i 0, eq_ix1 i⟩
  exact ref_neg x1 x2 x3 x4 x5 x6 x7 r

end Cert.ReferenceIdeal.RefValue

end
-- ==== Proof.lean ====
/-
  An attention-gated projection over a batch of 500000 graph edges.  Edge r has a feature row x r, a negative sample's
  row z r, and an attention weight a r read from a 16384 × 16384 adjacency table at the edge's (head, tail) node indices
  (a negative index counted from the end).  With a shared 128 × 128 projection K and bias b, the layer returns

      h r u   = max (a r · (∑ₖ x r k · K k u) + b u) 0,      pos r = ∑ᵤ h r u · x r u,      neg r = ∑ᵤ h r u · z r u.

  The reference computes exactly these on whole arrays.  The kernel program gathers the same weights with the same
  operations, pads the batch with zero rows to 123 tiles of 4096 rows, computes the three results tile by tile (the
  projection as a matrix product whose operands pass through a narrower float format, which on exact values is the
  identity, into a zero accumulator), and drops the padding rows again.  Since row r of every result depends on row r
  of the inputs alone, the padding rows never reach a kept row, and on the extended reals the two programs' results are
  the same expressions, entry by entry: no algebraic law beyond `0 + s = s` is used, so the inputs' finiteness is not
  needed.  The frames are the generated ones; the reference's is its generated run with the results dropped; the kernel's
  idealization rewrote nothing.
-/
import proofs.«112332_j14688788152633_1_alg».proof.Defs
import proofs.«112332_j14688788152633_1_alg».proof.Proof.Gen.Kernel
import proofs.«112332_j14688788152633_1_alg».proof.Proof.Gen.Kernel.Skeleton
import proofs.«112332_j14688788152633_1_alg».proof.Proof.Gen.Kernel.Launch
import proofs.«112332_j14688788152633_1_alg».proof.Proof.Gen.Kernel.Points
import proofs.«112332_j14688788152633_1_alg».proof.Proof.Gen.Kernel.Frame
import proofs.«112332_j14688788152633_1_alg».proof.Proof.Gen.KernelIdeal
import proofs.«112332_j14688788152633_1_alg».proof.Proof.Gen.KernelIdeal.Skeleton
import proofs.«112332_j14688788152633_1_alg».proof.Proof.Gen.KernelIdeal.Launch
import proofs.«112332_j14688788152633_1_alg».proof.Proof.Gen.KernelIdeal.Points
import proofs.«112332_j14688788152633_1_alg».proof.Proof.Gen.KernelIdeal.Frame
import proofs.«112332_j14688788152633_1_alg».proof.Proof.Gen.ReferenceIdeal
import proofs.«112332_j14688788152633_1_alg».proof.Proof.Gen.ReferenceIdeal.Run
import proofs.«112332_j14688788152633_1_alg».proof.Proof.Gen.ReferenceIdeal.Read
import proofs.«112332_j14688788152633_1_alg».proof.Proof.Gen.Pre_finite_inputs
import proofs.«112332_j14688788152633_1_alg».proof.Proof.KernelRun
import proofs.«112332_j14688788152633_1_alg».proof.Proof.RefSide
import Idealize.ShloMosaic.Adequacy
import Idealize.ShloMosaic.Init

noncomputable section

namespace Cert.Proof

open Idealize.ShloMosaic Idealize.SL.Sem Cert.EdgeSpec

/-- Both programs gather the edges' attention weights by the same operations on the same arguments: one term. -/
theorem att_same (A : (⟨Cert.KernelIdeal.S16384x16384, .f32⟩ : BufTy).Contents (Elt Ideal))
    (h t : (⟨Cert.KernelIdeal.S1x500000, .i32⟩ : BufTy).Contents (Elt Ideal)) :
    Cert.KernelIdeal.HostSide.attTerm A h t = Cert.ReferenceIdeal.Read.val_main_v16 (F := Ideal) A h t := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories agreeing on the arguments the kernel program ends with the activation array and the two score vectors
    of its arguments, and the reference with the same arrays of its own. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7⟩ := hagree c
  refine ⟨h0.trans ?_, h1.trans ?_, h2.trans ?_, hargs⟩
  · rw [a1, a3, a4, a5, a6, a7]
    exact (Cert.ReferenceIdeal.Read.val_main_v23_eq _ _ _ _ _ _).trans ((Cert.ReferenceIdeal.RefValue.ref_actOf _ _ _ _ _ _).trans
      (congrArg (fun a => actOf a _ _ _) (att_same _ _ _).symm))
  · rw [a1, a3, a4, a5, a6, a7]
    exact (Cert.ReferenceIdeal.Read.val_main_v25_eq _ _ _ _ _ _).trans ((Cert.ReferenceIdeal.RefValue.ref_posOf _ _ _ _ _ _).trans
      (congrArg (fun a => scoreOf a _ _ _ _) (att_same _ _ _).symm))
  · rw [a1, a2, a3, a4, a5, a6, a7]
    exact (Cert.ReferenceIdeal.Read.val_main_v27_eq _ _ _ _ _ _ _).trans ((Cert.ReferenceIdeal.RefValue.ref_negOf _ _ _ _ _ _ _).trans
      (congrArg (fun a => scoreOf a _ _ _ _) (att_same _ _ _).symm))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
